-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part2 {F : FTy → Type} [FloatOps F] (main_arg7 : FVec F S4096 .f32) (main_arg8 : FVec F S1024x4096 .f32) (main_arg9 : FVec F S1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S1024x4096 .f32 := Host.absf main_arg8
  let main_cst_14 : FVec F S_ .f32 := constant S_ .f32 0x7F800000#32
  let main_v40 : FVec F S1024x4096 .f32 := broadcastInDim S1024x4096 ![] bcast_S_S1024x4096 main_cst_14
  let main_v41 : IVec S1024x4096 1 := cmpf .olt main_v39 main_v40
  let main_c_15 : IVec S_ 1 := constantI S_ 1 1#1
  let main_v42 : IVec S_ 1 := (fun x v => Host.reduce IntOp.andi x v reducesTo_S1024x4096_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S256x1024 .f32) (main_arg5 : FVec F S256 .f32) (main_arg6 : FVec F S4096x1024 .f32) (main_arg7 : FVec F S4096 .f32) (main_arg8 : FVec F S1024x4096 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S64x256x32x32 .f32) (main_arg1 : FVec F S64x256x32x32 .f32) (main_arg2 : FVec F S1024x256 .f32) (main_arg3 : FVec F S1024 .f32) (main_arg4 : FVec F S256x1024 .f32) (main_arg5 : FVec F S256 .f32) (main_arg6 : FVec F S4096x1024 .f32) (main_arg7 : FVec F S4096 .f32) (main_arg8 : FVec F S1024x4096 .f32) (main_arg9 : FVec F S1024 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  let main_v4 : FVec F S64x256x32x32 .f32 := Host.absf main_arg1
  let main_cst_0 : FVec F S_ .f32 := constant S_ .f32 0x7F800000#32
  let main_v5 : FVec F S64x256x32x32 .f32 := broadcastInDim S64x256x32x32 ![] bcast_S_S64x256x32x32 main_cst_0
  let main_v6 : IVec S64x256x32x32 1 := cmpf .olt main_v4 main_v5
  let main_c_1 : IVec S_ 1 := constantI S_ 1 1#1
  let main_v7 : IVec S_ 1 := (fun x v => Host.reduce IntOp.andi x v reducesTo_S64x256x32x32_S_d0_1_2_3 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S64x256x32x32 : Shape := ⟨4, ![64, 256, 32, 32]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S4096x1024 : Shape := ⟨2, ![4096, 1024]⟩
abbrev S4096 : Shape := ⟨1, ![4096]⟩
abbrev S1024x4096 : Shape := ⟨2, ![1024, 4096]⟩
abbrev S64x256x1024 : Shape := ⟨3, ![64, 256, 1024]⟩
abbrev S64x256 : Shape := ⟨2, ![64, 256]⟩
abbrev S64x1024 : Shape := ⟨2, ![64, 1024]⟩
abbrev S8x256x1024 : Shape := ⟨3, ![8, 256, 1024]⟩
abbrev S8x256 : Shape := ⟨2, ![8, 256]⟩
abbrev S8x1024 : Shape := ⟨2, ![8, 1024]⟩
abbrev S1x1024 : Shape := ⟨2, ![1, 1024]⟩
abbrev S_ : Shape := ⟨0, ![]⟩
abbrev S1x256 : Shape := ⟨2, ![1, 256]⟩
abbrev S64x4096 : Shape := ⟨2, ![64, 4096]⟩
abbrev S1x4096 : Shape := ⟨2, ![1, 4096]⟩
abbrev S8x256x512 : Shape := ⟨3, ![8, 256, 512]⟩
abbrev S8x512 : Shape := ⟨2, ![8, 512]⟩
abbrev S8x256x1 : Shape := ⟨3, ![8, 256, 1]⟩
abbrev S8x1x512 : Shape := ⟨3, ![8, 1, 512]⟩

abbrev nBuf : Space → Nat
  | .hbm => 58
  | .vmem => 14
  | .smem => 0
  | _ => 0

abbrev bufTy : (tb : Table) → Fin (tcTables nBuf tb) → BufTy
  | .hbm, ⟨0, _⟩ => ⟨S64x256x32x32, .f32⟩
  | .hbm, ⟨1, _⟩ => ⟨S64x256x32x32, .f32⟩
  | .hbm, ⟨2, _⟩ => ⟨S1024x256, .f32⟩
  | .hbm, ⟨3, _⟩ => ⟨S1024, .f32⟩
  | .hbm, ⟨4, _⟩ => ⟨S256x1024, .f32⟩
  | .hbm, ⟨5, _⟩ => ⟨S256, .f32⟩
  | .hbm, ⟨6, _⟩ => ⟨S4096x1024, .f32⟩
  | .hbm, ⟨7, _⟩ => ⟨S4096, .f32⟩
  | .hbm, ⟨8, _⟩ => ⟨S1024x4096, .f32⟩
  | .hbm, ⟨9, _⟩ => ⟨S1024, .f32⟩
  | .hbm, ⟨10, _⟩ => ⟨S64x256x1024, .f32⟩
  | .hbm, ⟨11, _⟩ => ⟨S64x256x1024, .f32⟩
  | .hbm, ⟨12, _⟩ => ⟨S64x256, .f32⟩
  | .hbm, ⟨13, _⟩ => ⟨S64x1024, .f32⟩
  | .hbm, ⟨14, _⟩ => ⟨S256x1024, .f32⟩
  | .hbm, ⟨15, _⟩ => ⟨S64x1024, .f32⟩
  | .hbm, ⟨16, _⟩ => ⟨S1x1024, .f32⟩
  | .hbm, ⟨17, _⟩ => ⟨S64x1024, .f32⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S1024x256, .f32⟩
  | .hbm, ⟨23, _⟩ => ⟨S64x256, .f32⟩
  | .hbm, ⟨24, _⟩ => ⟨S1x256, .f32⟩
  | .hbm, ⟨25, _⟩ => ⟨S64x256, .f32⟩
  | .hbm, ⟨26, _⟩ => ⟨S64x256, .f32⟩
  | .hbm, ⟨27, _⟩ => ⟨S64x256, .f32⟩
  | .hbm, ⟨28, _⟩ => ⟨S64x256, .f32⟩
  | .hbm, ⟨29, _⟩ => ⟨S_, .f32⟩
  | .hbm, ⟨30, _⟩ => ⟨S64x256, .f32⟩
  | .hbm, ⟨31, _⟩ => ⟨S64x256, .f32⟩
  | .hbm, ⟨32, _⟩ => ⟨S_, .f32⟩
  | .hbm, ⟨33, _⟩ => ⟨S64x256, .f32⟩
  | .hbm, ⟨34, _⟩ => ⟨S64x256, .f32⟩
  | .hbm, ⟨35, _⟩ => ⟨S1024x4096, .f32⟩
  | .hbm, ⟨36, _⟩ => ⟨S64x4096, .f32⟩
  | .hbm, ⟨37, _⟩ => ⟨S1x4096, .f32⟩
  | .hbm, ⟨38, _⟩ => ⟨S64x4096, .f32⟩
  | .hbm, ⟨39, _⟩ => ⟨S64x4096, .f32⟩
  | .hbm, ⟨40, _⟩ => ⟨S_, .f32⟩
  | .hbm, ⟨41, _⟩ => ⟨S64x4096, .f32⟩
  | .hbm, ⟨42, _⟩ => ⟨S64x4096, .f32⟩
  | .hbm, ⟨43, _⟩ => ⟨S4096x1024, .f32⟩
  | .hbm, ⟨44, _⟩ => ⟨S64x1024, .f32⟩
  | .hbm, ⟨45, _⟩ => ⟨S1x1024, .f32⟩
  | .hbm, ⟨46, _⟩ => ⟨S64x1024, .f32⟩
  | .hbm, ⟨47, _⟩ => ⟨S64x1024, .f32⟩
  | .hbm, ⟨48, _⟩ => ⟨S64x1024, .f32⟩
  | .hbm, ⟨49, _⟩ => ⟨S64x1024, .f32⟩
  | .hbm, ⟨50, _⟩ => ⟨S_, .f32⟩
  | .hbm, ⟨51, _⟩ => ⟨S64x1024, .f32⟩
  | .hbm, ⟨52, _⟩ => ⟨S64x1024, .f32⟩
  | .hbm, ⟨53, _⟩ => ⟨S_, .f32⟩
  | .hbm, ⟨54, _⟩ => ⟨S64x1024, .f32⟩
  | .hbm, ⟨55, _⟩ => ⟨S64x1024, .f32⟩
  | .hbm, ⟨56, _⟩ => ⟨S64x256x1024, .f32⟩
  | .hbm, ⟨57, _⟩ => ⟨S64x256x32x32, .f32⟩
  | .local _ .vmem, ⟨0, _⟩ => ⟨S8x256x1024, .f32⟩
  | .local _ .vmem, ⟨1, _⟩ => ⟨S8x256x1024, .f32⟩
  | .local _ .vmem, ⟨2, _⟩ => ⟨S8x256, .f32⟩
  | .local _ .vmem, ⟨3, _⟩ => ⟨S8x256, .f32⟩
  | .local _ .vmem, ⟨4, _⟩ => ⟨S8x1024, .f32⟩
  | .local _ .vmem, ⟨5, _⟩ => ⟨S8x1024, .f32⟩
  | .local _ .vmem, ⟨6, _⟩ => ⟨S8x256x512, .f32⟩
  | .local _ .vmem, ⟨7, _⟩ => ⟨S8x256x512, .f32⟩
  | .local _ .vmem, ⟨8, _⟩ => ⟨S8x256, .f32⟩
  | .local _ .vmem, ⟨9, _⟩ => ⟨S8x256, .f32⟩
  | .local _ .vmem, ⟨10, _⟩ => ⟨S8x512, .f32⟩
  | .local _ .vmem, ⟨11, _⟩ => ⟨S8x512, .f32⟩
  | .local _ .vmem, ⟨12, _⟩ => ⟨S8x256x512, .f32⟩
  | .local _ .vmem, ⟨13, _⟩ => ⟨S8x256x512, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_cst : Ref sig .tc := ⟨.hbm, 40, rfl⟩
abbrev main_call1_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_1 : Ref sig .tc := ⟨.hbm, 50, rfl⟩
abbrev main_v33 : Ref sig .tc := ⟨.hbm, 51, rfl⟩
abbrev main_v34 : Ref sig .tc := ⟨.hbm, 52, rfl⟩
abbrev main_cst_2 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S8x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S64x256x32x32_S64x256x1024 : S64x256x32x32.ShapeCasts S64x256x1024
  inb_S8x256x1024_S8x256x1024_0_0_0 : ∀ a, (![0, 0, 0] : Fin 3 → Nat) a + S8x256x1024.size a ≤ S8x256x1024.size a
  h_S8x256x1024 : 0 < S8x256x1024.numel
  shapeCasts_S8x256x1024_S8x256x1024 : S8x256x1024.ShapeCasts S8x256x1024
  reduces_S8x256x1024_S8x256 : S8x256x1024.Reduces [2] S8x256
  inb_S8x256_S8x256_0_0 : ∀ a, (![0, 0] : Fin 2 → Nat) a + S8x256.size a ≤ S8x256.size a
  h_S8x256 : 0 < S8x256.numel
  reduces_S8x256x1024_S8x1024 : S8x256x1024.Reduces [1] S8x1024
  inb_S8x1024_S8x1024_0_0 : ∀ a, (![0, 0] : Fin 2 → Nat) a + S8x1024.size a ≤ S8x1024.size a
  h_S8x1024 : 0 < S8x1024.numel
  transposes_S1024x256_S256x1024_1_0 : S1024x256.Transposes [1, 0] S256x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  transposes_S256x1024_S1024x256_1_0 : S256x1024.Transposes [1, 0] S1024x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  bcast_S_S64x4096 : S_.BroadcastsInDim S64x4096 (![] : Fin 0 → Fin S64x4096.rank)
  transposes_S1024x4096_S4096x1024_1_0 : S1024x4096.Transposes [1, 0] S4096x1024
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  shapeCasts_S8x256_S8x256 : S8x256.ShapeCasts S8x256
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S8x256_S8x256x1 : S8x256.ShapeCasts S8x256x1
  broadcasts_S8x256x1_S8x256x512 : S8x256x1.Broadcasts S8x256x512
  shapeCasts_S8x512_S8x1x512 : S8x512.ShapeCasts S8x1x512
  broadcasts_S8x1x512_S8x256x512 : S8x1x512.Broadcasts S8x256x512
  shapeCasts_S64x256x1024_S64x256x32x32 : S64x256x1024.ShapeCasts S64x256x32x32
  dot_S64x256_S256x1024_S64x1024_1_0_0_1_n_n_wf : DotDims.WF S64x256 S256x1024 S64x1024 [1] [0] [0] [1] [] []
  dot_S64x1024_S1024x256_S64x256_1_0_0_1_n_n_wf : DotDims.WF S64x1024 S1024x256 S64x256 [1] [0] [0] [1] [] []
  dot_S64x1024_S1024x4096_S64x4096_1_0_0_1_n_n_wf : DotDims.WF S64x1024 S1024x4096 S64x4096 [1] [0] [0] [1] [] []
  dot_S64x4096_S4096x1024_S64x1024_1_0_0_1_n_n_wf : DotDims.WF S64x4096 S4096x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S64x256x1024.size a
  hwx0_0 : ∀ i : grid0.Coords, EltTy.bits .f32 = 32 ∨ (Rect.block (s := S64x256x1024) S8x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S64x256.size a
  hwx0_1 : ∀ i : grid0.Coords, EltTy.bits .f32 = 32 ∨ (Rect.block (s := S64x256) S8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S64x1024.size a
  hwx0_2 : ∀ i : grid0.Coords, EltTy.bits .f32 = 32 ∨ (Rect.block (s := S64x1024) S8x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x512.size a ≤ S64x256x1024.size a
  hwx1_0 : ∀ i : grid1.Coords, EltTy.bits .f32 = 32 ∨ (Rect.block (s := S64x256x1024) S8x256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S64x256.size a
  hwx1_1 : ∀ i : grid1.Coords, EltTy.bits .f32 = 32 ∨ (Rect.block (s := S64x256) S8x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S64x1024.size a
  hwx1_2 : ∀ i : grid1.Coords, EltTy.bits .f32 = 32 ∨ (Rect.block (s := S64x1024) S8x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256x512.size a ≤ S64x256x1024.size a
  hwx1_3 : ∀ i : grid1.Coords, EltTy.bits .f32 = 32 ∨ (Rect.block (s := S64x256x1024) S8x256x512.size (cc1_transform_3 i) (hinb1_3 i)).WholeWords (EltTy.packing .f32)

variable [Facts₀]

def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf
def dot_S64x1024_S1024x256_S64x256_1_0_0_1_n_n : DotDims S64x1024 S1024x256 S64x256 where
  lhsContracting := [1]
  rhsContracting := [0]
  lhsNonContracting := [0]
  rhsNonContracting := [1]
  lhsBatch := []
  rhsBatch := []
  wf := dot_S64x1024_S1024x256_S64x256_1_0_0_1_n_n_wf
def dot_S64x1024_S1024x4096_S64x4096_1_0_0_1_n_n : DotDims S64x1024 S1024x4096 S64x4096 where
  lhsContracting := [1]
  rhsContracting := [0]
  lhsNonContracting := [0]
  rhsNonContracting := [1]
  lhsBatch := []
  rhsBatch := []
  wf := dot_S64x1024_S1024x4096_S64x4096_1_0_0_1_n_n_wf
def dot_S64x4096_S4096x1024_S64x1024_1_0_0_1_n_n : DotDims S64x4096 S4096x1024 S64x1024 where
  lhsContracting := [1]
  rhsContracting := [0]
  lhsNonContracting := [0]
  rhsNonContracting := [1]
  lhsBatch := []
  rhsBatch := []
  wf := dot_S64x4096_S4096x1024_S64x1024_1_0_0_1_n_n_wf

abbrev win0_0 : Pipeline.Window sig grid0 :=
  Pipeline.Window.ofSpec (Memref.whole main_v0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S8x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S8x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S8x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S8x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S8x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S8x256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x256x32x32 : Shape := ⟨4, ![64, 256, 32, 32]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩
abbrev S64x256 : Shape := ⟨2, ![64, 256]⟩
abbrev S64x1024 : Shape := ⟨2, ![64, 1024]⟩
abbrev S1x1024 : Shape := ⟨2, ![1, 1024]⟩
abbrev S1x256 : Shape := ⟨2, ![1, 256]⟩
abbrev S64x256x1x1 : Shape := ⟨4, ![64, 256, 1, 1]⟩
abbrev S64x32x32 : Shape := ⟨3, ![64, 32, 32]⟩
abbrev S64x4096 : Shape := ⟨2, ![64, 4096]⟩
abbrev S1x4096 : Shape := ⟨2, ![1, 4096]⟩
abbrev S64x1x32x32 : Shape := ⟨4, ![64, 1, 32, 32]⟩

abbrev nBuf : Space → Nat
  | .hbm => 70
  | .vmem => 0
  | .smem => 0
  | _ => 0

abbrev bufTy : (tb : Table) → Fin (tcTables nBuf tb) → BufTy
  | .hbm, ⟨0, _⟩ => ⟨S64x256x32x32, .f32⟩
  | .hbm, ⟨1, _⟩ => ⟨S64x256x32x32, .f32⟩
  | .hbm, ⟨2, _⟩ => ⟨S1024x256, .f32⟩
  | .hbm, ⟨3, _⟩ => ⟨S1024, .f32⟩
  | .hbm, ⟨4, _⟩ => ⟨S256x1024, .f32⟩
  | .hbm, ⟨5, _⟩ => ⟨S256, .f32⟩
  | .hbm, ⟨6, _⟩ => ⟨S4096x1024, .f32⟩
  | .hbm, ⟨7, _⟩ => ⟨S4096, .f32⟩
  | .hbm, ⟨8, _⟩ => ⟨S1024x4096, .f32⟩
  | .hbm, ⟨9, _⟩ => ⟨S1024, .f32⟩
  | .hbm, ⟨10, _⟩ => ⟨S_, .f32⟩
  | .hbm, ⟨11, _⟩ => ⟨S64x256, .f32⟩
  | .hbm, ⟨12, _⟩ => ⟨S_, .f32⟩
  | .hbm, ⟨13, _⟩ => ⟨S64x256, .f32⟩
  | .hbm, ⟨14, _⟩ => ⟨S64x256, .f32⟩
  | .hbm, ⟨15, _⟩ => ⟨S256x1024, .f32⟩
  | .hbm, ⟨16, _⟩ => ⟨S64x1024, .f32⟩
  | .hbm, ⟨17, _⟩ => ⟨S1x1024, .f32⟩
  | .hbm, ⟨18, _⟩ => ⟨S64x1024, .f32⟩
  | .hbm, ⟨19, _⟩ => ⟨S64x1024, .f32⟩
  | .hbm, ⟨20, _⟩ => ⟨S_, .f32⟩
  | .hbm, ⟨21, _⟩ => ⟨S64x1024, .f32⟩
  | .hbm, ⟨22, _⟩ => ⟨S64x1024, .f32⟩
  | .hbm, ⟨23, _⟩ => ⟨S1024x256, .f32⟩
  | .hbm, ⟨24, _⟩ => ⟨S64x256, .f32⟩
  | .hbm, ⟨25, _⟩ => ⟨S1x256, .f32⟩
  | .hbm, ⟨26, _⟩ => ⟨S64x256, .f32⟩
  | .hbm, ⟨27, _⟩ => ⟨S64x256, .f32⟩
  | .hbm, ⟨28, _⟩ => ⟨S64x256, .f32⟩
  | .hbm, ⟨29, _⟩ => ⟨S64x256, .f32⟩
  | .hbm, ⟨30, _⟩ => ⟨S_, .f32⟩
  | .hbm, ⟨31, _⟩ => ⟨S64x256, .f32⟩
  | .hbm, ⟨32, _⟩ => ⟨S64x256, .f32⟩
  | .hbm, ⟨33, _⟩ => ⟨S_, .f32⟩
  | .hbm, ⟨34, _⟩ => ⟨S64x256, .f32⟩
  | .hbm, ⟨35, _⟩ => ⟨S64x256, .f32⟩
  | .hbm, ⟨36, _⟩ => ⟨S64x256x1x1, .f32⟩
  | .hbm, ⟨37, _⟩ => ⟨S64x256x32x32, .f32⟩
  | .hbm, ⟨38, _⟩ => ⟨S64x256x32x32, .f32⟩
  | .hbm, ⟨39, _⟩ => ⟨S_, .f32⟩
  | .hbm, ⟨40, _⟩ => ⟨S64x32x32, .f32⟩
  | .hbm, ⟨41, _⟩ => ⟨S_, .f32⟩
  | .hbm, ⟨42, _⟩ => ⟨S64x32x32, .f32⟩
  | .hbm, ⟨43, _⟩ => ⟨S64x32x32, .f32⟩
  | .hbm, ⟨44, _⟩ => ⟨S64x1024, .f32⟩
  | .hbm, ⟨45, _⟩ => ⟨S1024x4096, .f32⟩
  | .hbm, ⟨46, _⟩ => ⟨S64x4096, .f32⟩
  | .hbm, ⟨47, _⟩ => ⟨S1x4096, .f32⟩
  | .hbm, ⟨48, _⟩ => ⟨S64x4096, .f32⟩
  | .hbm, ⟨49, _⟩ => ⟨S64x4096, .f32⟩
  | .hbm, ⟨50, _⟩ => ⟨S_, .f32⟩
  | .hbm, ⟨51, _⟩ => ⟨S64x4096, .f32⟩
  | .hbm, ⟨52, _⟩ => ⟨S64x4096, .f32⟩
  | .hbm, ⟨53, _⟩ => ⟨S4096x1024, .f32⟩
  | .hbm, ⟨54, _⟩ => ⟨S64x1024, .f32⟩
  | .hbm, ⟨55, _⟩ => ⟨S1x1024, .f32⟩
  | .hbm, ⟨56, _⟩ => ⟨S64x1024, .f32⟩
  | .hbm, ⟨57, _⟩ => ⟨S64x1024, .f32⟩
  | .hbm, ⟨58, _⟩ => ⟨S64x1024, .f32⟩
  | .hbm, ⟨59, _⟩ => ⟨S64x1024, .f32⟩
  | .hbm, ⟨60, _⟩ => ⟨S_, .f32⟩
  | .hbm, ⟨61, _⟩ => ⟨S64x1024, .f32⟩
  | .hbm, ⟨62, _⟩ => ⟨S64x1024, .f32⟩
  | .hbm, ⟨63, _⟩ => ⟨S_, .f32⟩
  | .hbm, ⟨64, _⟩ => ⟨S64x1024, .f32⟩
  | .hbm, ⟨65, _⟩ => ⟨S64x1024, .f32⟩
  | .hbm, ⟨66, _⟩ => ⟨S64x1x32x32, .f32⟩
  | .hbm, ⟨67, _⟩ => ⟨S64x256x32x32, .f32⟩
  | .hbm, ⟨68, _⟩ => ⟨S64x256x32x32, .f32⟩
  | .hbm, ⟨69, _⟩ => ⟨S64x256x32x32, .f32⟩
  | _, _ => ⟨S64x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_cst : Ref sig .tc := ⟨.hbm, 50, rfl⟩
abbrev main_call1_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  reducesTo_S64x256x32x32_S64x256_d2_3 : S64x256x32x32.ReducesTo [2, 3] S64x256
  h_S_ : 0 < S_.numel
  bcast_S_S64x256 : S_.BroadcastsInDim S64x256 (![] : Fin 0 → Fin S64x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  transposes_S256x1024_S1024x256_1_0 : S256x1024.Transposes [1, 0] S1024x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S64x256_S64x256x1x1_0_1 : S64x256.BroadcastsInDim S64x256x1x1 (![0, 1] : Fin 2 → Fin S64x256x1x1.rank)
  bcast_S64x256x1x1_S64x256x32x32_0_1_2_3 : S64x256x1x1.BroadcastsInDim S64x256x32x32 (![0, 1, 2, 3] : Fin 4 → Fin S64x256x32x32.rank)
  reducesTo_S64x256x32x32_S64x32x32_d1 : S64x256x32x32.ReducesTo [1] S64x32x32
  bcast_S_S64x32x32 : S_.BroadcastsInDim S64x32x32 (![] : Fin 0 → Fin S64x32x32.rank)
  shapeCasts_S64x32x32_S64x1024 : S64x32x32.ShapeCasts S64x1024
  transposes_S4096x1024_S1024x4096_1_0 : S4096x1024.Transposes [1, 0] S1024x4096
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  bcast_S_S64x4096 : S_.BroadcastsInDim S64x4096 (![] : Fin 0 → Fin S64x4096.rank)
  transposes_S1024x4096_S4096x1024_1_0 : S1024x4096.Transposes [1, 0] S4096x1024
  shapeCasts_S64x1024_S64x1x32x32 : S64x1024.ShapeCasts S64x1x32x32
  bcast_S64x1x32x32_S64x256x32x32_0_1_2_3 : S64x1x32x32.BroadcastsInDim S64x256x32x32 (![0, 1, 2, 3] : Fin 4 → Fin S64x256x32x32.rank)
  dot_S64x256_S256x1024_S64x1024_1_0_0_1_n_n_wf : DotDims.WF S64x256 S256x1024 S64x1024 [1] [0] [0] [1] [] []
  dot_S64x1024_S1024x256_S64x256_1_0_0_1_n_n_wf : DotDims.WF S64x1024 S1024x256 S64x256 [1] [0] [0] [1] [] []
  dot_S64x1024_S1024x4096_S64x4096_1_0_0_1_n_n_wf : DotDims.WF S64x1024 S1024x4096 S64x4096 [1] [0] [0] [1] [] []
  dot_S64x4096_S4096x1024_S64x1024_1_0_0_1_n_n_wf : DotDims.WF S64x4096 S4096x1024 S64x1024 [1] [0] [0] [1] [] []

variable [Facts₀]

def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf
def dot_S64x1024_S1024x256_S64x256_1_0_0_1_n_n : DotDims S64x1024 S1024x256 S64x256 where
  lhsContracting := [1]
  rhsContracting := [0]
  lhsNonContracting := [0]
  rhsNonContracting := [1]
  lhsBatch := []
  rhsBatch := []
  wf := dot_S64x1024_S1024x256_S64x256_1_0_0_1_n_n_wf
def dot_S64x1024_S1024x4096_S64x4096_1_0_0_1_n_n : DotDims S64x1024 S1024x4096 S64x4096 where
  lhsContracting := [1]
  rhsContracting := [0]
  lhsNonContracting := [0]
  rhsNonContracting := [1]
  lhsBatch := []
  rhsBatch := []
  wf := dot_S64x1024_S1024x4096_S64x4096_1_0_0_1_n_n_wf
def dot_S64x4096_S4096x1024_S64x1024_1_0_0_1_n_n : DotDims S64x4096 S4096x1024 S64x1024 where
  lhsContracting := [1]
  rhsContracting := [0]
  lhsNonContracting := [0]
  rhsNonContracting := [1]
  lhsBatch := []
  rhsBatch := []
  wf := dot_S64x4096_S4096x1024_S64x1024_1_0_0_1_n_n_wf

class Facts : Prop extends Facts₀ where

variable [Facts]
-- ==== Proof.Spec.lean ====
/-
  What the two programs compute, as functions of whole arrays at the ideal values (extended reals).

  The input `x` is read as a [64, 256, 1024] array (batch, channel, position), position = 32·row + column.
  `chMean x (b, c)` is the mean of channel `c` of batch `b` over its 1024 positions; `spMean x (b, p)` the mean over
  the 256 channels at position `p`. Both divide a finite sum by the literal f32 pattern of the count, which is kept
  as a pattern and never evaluated. `fuse t g h` is the output: each target element scaled by its channel's gate and by
  its position's gate, the larger of the two kept.
-/
import Idealize.ShloMosaic.PureOps.Ideal
import Idealize.ShloMosaic.Lib.ValueIdx

noncomputable section

open scoped BigOperators

namespace Cert.Spec

open Idealize.ShloMosaic Idealize.ShloMosaic.ValueIdx

/-- [batch, channel, position]. -/
abbrev X3 : Shape := ⟨3, ![64, 256, 1024]⟩
/-- [batch, channel]. -/
abbrev C2 : Shape := ⟨2, ![64, 256]⟩
/-- [batch, position]. -/
abbrev P2 : Shape := ⟨2, ![64, 1024]⟩

/-- The mean over the 1024 positions of one (batch, channel) row: the row's sum divided by the f32 pattern of 1024. -/
def chMean (x : X3.Idx → EReal) : C2.Idx → EReal := fun i =>
  Ideal.div (∑ k : Fin 1024, x (ix3 (n0 := 64) (n1 := 256) (n2 := 1024) (i 0) (i 1) k)) (Ideal.ofBits .f32 0x44800000#32)

/-- The mean over the 256 channels at one (batch, position): the column's sum divided by the f32 pattern of 256. -/
def spMean (x : X3.Idx → EReal) : P2.Idx → EReal := fun i =>
  Ideal.div (∑ k : Fin 256, x (ix3 (n0 := 64) (n1 := 256) (n2 := 1024) (i 0) k (i 1))) (Ideal.ofBits .f32 0x43800000#32)

/-- The gated output: the target element times its channel's gate, and times its position's gate; the larger is kept. -/
def fuse (t : X3.Idx → EReal) (g : C2.Idx → EReal) (h : P2.Idx → EReal) : X3.Idx → EReal := fun i =>
  max (t i * g (ix2 (n0 := 64) (n1 := 256) (i 0) (i 1))) (t i * h (ix2 (n0 := 64) (n1 := 1024) (i 0) (i 2)))

end Cert.Spec

end
-- ==== Proof.HostChain.lean ====
import proofs.«130932_j62732292325378_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostChain

open Cert.KernelIdeal Cert.KernelIdeal.Gen

variable {F : FTy → Type} [FloatOps F]

/-- The channel gate as one function of the channel means `u` and the two layers' weights and biases: a dense layer
    (`u · w1ᵀ + b1`), the positive part, a second dense layer (`· w2ᵀ + b2`), then the logistic function
    `1 / (1 + exp (-·))`. It is carried whole: both programs apply exactly these operations. -/
def gateC (u : (⟨S64x256, .f32⟩ : BufTy).Contents (Elt F)) (w1 : (⟨S1024x256, .f32⟩ : BufTy).Contents (Elt F)) (b1 : (⟨S1024, .f32⟩ : BufTy).Contents (Elt F)) (w2 : (⟨S256x1024, .f32⟩ : BufTy).Contents (Elt F)) (b2 : (⟨S256, .f32⟩ : BufTy).Contents (Elt F)) :
    (⟨S64x256, .f32⟩ : BufTy).Contents (Elt F) :=
  (Host.divf (broadcastInDim S64x256 ![] bcast_S_S64x256 (constant S_ .f32 0x3F800000#32)) (addf (broadcastInDim S64x256 ![] bcast_S_S64x256 (constant S_ .f32 0x3F800000#32)) (Host.exp (Host.negf (addf (Host.dotGeneral dot_S64x1024_S1024x256_S64x256_1_0_0_1_n_n none (maximumf (addf (Host.dotGeneral dot_S64x256_S256x1024_S64x1024_1_0_0_1_n_n none u (transpose S256x1024 [1, 0] w1 transposes_S1024x256_S256x1024_1_0)) (broadcastInDim S64x1024 ![0, 1] bcast_S1x1024_S64x1024_0_1 (broadcastInDim S1x1024 ![1] bcast_S1024_S1x1024_1 b1))) (broadcastInDim S64x1024 ![] bcast_S_S64x1024 (constant S_ .f32 0x00000000#32))) (transpose S1024x256 [1, 0] w2 transposes_S256x1024_S1024x256_1_0)) (broadcastInDim S64x256 ![0, 1] bcast_S1x256_S64x256_0_1 (broadcastInDim S1x256 ![1] bcast_S256_S1x256_1 b2)))))))

/-- The position gate, the same two-layer form over the position means `u`. -/
def gateS (u : (⟨S64x1024, .f32⟩ : BufTy).Contents (Elt F)) (w1 : (⟨S4096x1024, .f32⟩ : BufTy).Contents (Elt F)) (b1 : (⟨S4096, .f32⟩ : BufTy).Contents (Elt F)) (w2 : (⟨S1024x4096, .f32⟩ : BufTy).Contents (Elt F)) (b2 : (⟨S1024, .f32⟩ : BufTy).Contents (Elt F)) :
    (⟨S64x1024, .f32⟩ : BufTy).Contents (Elt F) :=
  (Host.divf (broadcastInDim S64x1024 ![] bcast_S_S64x1024 (constant S_ .f32 0x3F800000#32)) (addf (broadcastInDim S64x1024 ![] bcast_S_S64x1024 (constant S_ .f32 0x3F800000#32)) (Host.exp (Host.negf (addf (Host.dotGeneral dot_S64x4096_S4096x1024_S64x1024_1_0_0_1_n_n none (maximumf (addf (Host.dotGeneral dot_S64x1024_S1024x4096_S64x4096_1_0_0_1_n_n none u (transpose S1024x4096 [1, 0] w1 transposes_S4096x1024_S1024x4096_1_0)) (broadcastInDim S64x4096 ![0, 1] bcast_S1x4096_S64x4096_0_1 (broadcastInDim S1x4096 ![1] bcast_S4096_S1x4096_1 b1))) (broadcastInDim S64x4096 ![] bcast_S_S64x4096 (constant S_ .f32 0x00000000#32))) (transpose S4096x1024 [1, 0] w2 transposes_S1024x4096_S4096x1024_1_0)) (broadcastInDim S64x1024 ![0, 1] bcast_S1x1024_S64x1024_0_1 (broadcastInDim S1x1024 ![1] bcast_S1024_S1x1024_1 b2)))))))

variable (m : (ℓ : Loc nD τ sig) → Buf (Elt F) ℓ) (ρ : Dev nD → PrngReg)

/-- The first region reads the input flattened to [64, 256, 1024]. -/
theorem x3_entry (c : Dev nD) :
    V1 m ρ c main_v0 = shapeCast S64x256x1024 (m ((c : Thread nD τ).loc main_arg0)) shapeCasts_S64x256x32x32_S64x256x1024 := by
  show StableHlo.after hostOps0 (W0 m ρ c) (Proc.devRef .tc main_v0) = _
  simp only [hostOps0]
  after_results
  rfl

/-! Between the two regions no operation writes an argument, and the first region's arrays are the flattened input and
    the two means: each argument read at the first region's exit is what the memory held at launch. -/

theorem exit0_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  simp only [hostOps0]
  after_results

theorem exit0_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  simp only [hostOps0]
  after_results

theorem exit0_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  simp only [hostOps0]
  after_results

theorem exit0_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  simp only [hostOps0]
  after_results

theorem exit0_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  simp only [hostOps0]
  after_results

theorem exit0_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  simp only [hostOps0]
  after_results

theorem exit0_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  simp only [hostOps0]
  after_results

theorem exit0_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  simp only [hostOps0]
  after_results

set_option maxHeartbeats 2000000 in
/-- The second region reads the target flattened to [64, 256, 1024]: nothing between writes it. -/
theorem t3_entry (c : Dev nD) :
    V7 m ρ c main_v1 = shapeCast S64x256x1024 (m ((c : Thread nD τ).loc main_arg1)) shapeCasts_S64x256x32x32_S64x256x1024 := by
  show StableHlo.after hostOps1_4 (StableHlo.after hostOps1_3 (StableHlo.after hostOps1_2 (StableHlo.after hostOps1_1 (StableHlo.after hostOps1 (W2 m ρ c))))) (Proc.devRef .tc main_v1) = _
  simp only [hostOps1_4, hostOps1_3, hostOps1_2, hostOps1_1, hostOps1]
  after_results_simp
  rw [W2_of_ne m ρ c main_v1 (by decide)]
  show StableHlo.after hostOps0 (W0 m ρ c) (Proc.devRef .tc main_v1) = _
  simp only [hostOps0]
  after_results
  rfl

set_option maxHeartbeats 2000000 in
/-- The second region's channel-gate operand is the channel gate of what the first region left in its first output. -/
theorem gc_entry (c : Dev nD) :
    V7 m ρ c main_v19 = gateC (V2 m ρ c main_v2_0) (m ((c : Thread nD τ).loc main_arg2)) (m ((c : Thread nD τ).loc main_arg3)) (m ((c : Thread nD τ).loc main_arg4)) (m ((c : Thread nD τ).loc main_arg5)) := by
  show StableHlo.after hostOps1_4 (StableHlo.after hostOps1_3 (StableHlo.after hostOps1_2 (StableHlo.after hostOps1_1 (StableHlo.after hostOps1 (W2 m ρ c))))) (Proc.devRef .tc main_v19) = _
  simp only [hostOps1_4, hostOps1_3, hostOps1_2, hostOps1_1, hostOps1]
  after_results_simp
  rw [exit0_arg2, exit0_arg3, exit0_arg4, exit0_arg5]
  rfl

set_option maxHeartbeats 2000000 in
/-- Its position-gate operand is the position gate of what the first region left in its second output. -/
theorem gs_entry (c : Dev nD) :
    V7 m ρ c main_v36 = gateS (V2 m ρ c main_v2_1) (m ((c : Thread nD τ).loc main_arg6)) (m ((c : Thread nD τ).loc main_arg7)) (m ((c : Thread nD τ).loc main_arg8)) (m ((c : Thread nD τ).loc main_arg9)) := by
  show StableHlo.after hostOps1_4 (StableHlo.after hostOps1_3 (StableHlo.after hostOps1_2 (StableHlo.after hostOps1_1 (StableHlo.after hostOps1 (W2 m ρ c))))) (Proc.devRef .tc main_v36) = _
  simp only [hostOps1_4, hostOps1_3, hostOps1_2, hostOps1_1, hostOps1]
  after_results_simp
  rw [exit0_arg6, exit0_arg7, exit0_arg8, exit0_arg9]
  rfl

/-- The result is the second region's output unflattened to [64, 256, 32, 32]. -/
theorem out_exit (c : Dev nD) :
    W9 m ρ c (Proc.devRef .tc main_v38) = shapeCast S64x256x32x32 (V8 m ρ c main_v37) shapeCasts_S64x256x1024_S64x256x32x32 := by
  show StableHlo.after hostOps2 (W8 m ρ c) (Proc.devRef .tc main_v38) = _
  simp only [hostOps2]
  after_results
  rfl

end Cert.KernelIdeal.HostChain

end
-- ==== Proof.Region0.lean ====
import proofs.«130932_j62732292325378_1_alg».proof.Proof.Gen.KernelIdeal.Frame
import proofs.«130932_j62732292325378_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

-- the TensorCore's buffer contents when the region is entered
variable (V : (c : Dev nD) → (b : Ref sig .tc) → Buf (Elt Ideal) ((c : Thread nD τ).loc b))

/-! # The value of region 0 (the squeeze kernel)

  The grid has 8 points over the batch axis. At point `t` the body reads batches 8t … 8t+7 of the input (all 256 channels,
  all 1024 positions) and writes, for those batches, each channel's mean over the positions and each position's mean over
  the channels. Each mean is the sum along one axis of the block divided by the f32 pattern of the count, the pattern kept
  as a pattern. Every batch lies in exactly the block of its eight, so after the last point the two output arrays hold the
  means of the whole input. -/

theorem zero2 : (![0, 0] : Fin 2 → Nat) = fun _ => 0 := funext fun a => by
  match a with | ⟨0, _⟩ => rfl | ⟨1, _⟩ => rfl
theorem zero3 : (![0, 0, 0] : Fin 3 → Nat) = fun _ => 0 := funext fun a => by
  match a with | ⟨0, _⟩ => rfl | ⟨1, _⟩ => rfl | ⟨2, _⟩ => rfl

/-- One block's channel means: the sum of a row over its 1024 positions, over the pattern of 1024. -/
theorem block_chMean (x0 : Vec Ideal S8x256x1024 .f32) (p : Fin 8) (q : Fin 256) :
    k0_pay2 x0 (ix2 p q) = Ideal.div (∑ k : Fin 1024, x0 (ix3 p q k)) (Ideal.ofBits .f32 0x44800000#32) := by
  unfold k0_pay2 k0_pay1
  dsimp only
  rw [divf_apply, broadcast_apply, shapeCast_self]
  refine congrArg (fun s => Ideal.div s (Ideal.ofBits .f32 0x44800000#32)) ?_
  refine (Ideal.multiReduction_add_single x0 _ _ _ _ (ix2 p q)).trans ?_
  refine Finset.sum_congr rfl fun k _ => congrArg x0 (funext fun a => ?_)
  match a with | ⟨0, _⟩ => rfl | ⟨1, _⟩ => rfl | ⟨2, _⟩ => rfl

/-- One block's position means: the sum of a column over its 256 channels, over the pattern of 256. -/
theorem block_spMean (x0 : Vec Ideal S8x256x1024 .f32) (p : Fin 8) (q : Fin 1024) :
    k0_pay3 x0 (ix2 p q) = Ideal.div (∑ k : Fin 256, x0 (ix3 p k q)) (Ideal.ofBits .f32 0x43800000#32) := by
  unfold k0_pay3 k0_pay1
  dsimp only
  rw [divf_apply, broadcast_apply, shapeCast_self]
  refine congrArg (fun s => Ideal.div s (Ideal.ofBits .f32 0x43800000#32)) ?_
  refine (Ideal.multiReduction_add_single x0 _ _ _ _ (ix2 p q)).trans ?_
  refine Finset.sum_congr rfl fun k _ => congrArg x0 (funext fun a => ?_)
  match a with | ⟨0, _⟩ => rfl | ⟨1, _⟩ => rfl | ⟨2, _⟩ => rfl

/-- The printed index maps over the grid: at point `t` the input's block and both outputs' blocks are batch block `t`,
    and every other axis is whole (block 0). -/
theorem index_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-! ## The channel means (window 1) -/

/-- At point `t`, entry (p, q) of the block written back is the channel mean of the whole array at batch 8t + p, channel q. -/
theorem chan_point (c : Dev nD) (t : Fin cfg0.N) (j : S8x256.Idx) :
    k0_pay2 (iblk0 (F := Ideal) V c 0 t) j = Cert.Spec.chMean (V c main_v0) (((cfg0.win 1).blk t).view.emb j) := by
  obtain ⟨p, q, rfl⟩ : ∃ (p : Fin 8) (q : Fin 256), j = ix2 p q := ⟨j 0, j 1, eq_ix2 j⟩
  obtain ⟨a0, a1, a2, b0, b1, -, -⟩ := index_facts t
  refine (block_chMean (iblk0 (F := Ideal) V c 0 t) p q).trans ?_
  unfold Cert.Spec.chMean
  refine congrArg (fun s => Ideal.div s (Ideal.ofBits .f32 0x44800000#32)) (Finset.sum_congr rfl fun k _ => ?_)
  show V c main_v0 (((cfg0.win 0).blk t).view.emb (ix3 p q k)) = V c main_v0 _
  refine congrArg (V c main_v0) (funext fun a => Fin.ext ?_)
  match a with
  | ⟨0, _⟩ => show win0_0.index t (0 : Fin 3) * 8 + 1 * p.val = win0_1.index t (0 : Fin 2) * 8 + 1 * p.val; omega
  | ⟨1, _⟩ => show win0_0.index t (1 : Fin 3) * 256 + 1 * q.val = win0_1.index t (1 : Fin 2) * 256 + 1 * q.val; omega
  | ⟨2, _⟩ => show win0_0.index t (2 : Fin 3) * 1024 + 1 * k.val = k.val; omega

/-- What point `t` writes back into the channel-mean array: its block of the whole array's channel means. -/
theorem chan_flushed (c : Dev nD) (t : Fin cfg0.N) :
    (dat0 (F := Ideal) V c).flushed 1 t = ((cfg0.win 1).blk t).view.read (Elt Ideal) (Cert.Spec.chMean (V c main_v0)) := by
  show (cfg0.win 1).cut (grid0.coords t) ((dat0 V c).after 1 t) = _
  rw [after0_1]
  unfold out0_1
  rw [View.canon_unit_zero zero2]
  simp only [View.ld_unit_zero (S := S8x256x1024) zero3]
  funext j
  exact chan_point V c t j

/-- An index of the channel-mean array lies in point `t`'s block iff each coordinate is in the block's range. -/
theorem chan_mem_blk (t : Fin cfg0.N) (i : S64x256.Idx) :
    i ∈ ((cfg0.win 1).blk t).view.set ↔ ∀ a : Fin 2, win0_1.index t a * S8x256.size a ≤ (i a).val ∧ (i a).val < win0_1.index t a * S8x256.size a + S8x256.size a := by
  show i ∈ ((View.whole main_v2_0).slice (win0_1.rect t)).set ↔ _
  rw [View.set_slice_whole, Rect.mem_set_unit]
  exact Iff.rfl

/-- Every (batch, channel) is written back by the point of its batch's block of eight. -/
theorem chan_cover (i : S64x256.Idx) :
    ∃ t : Fin cfg0.N, (cfg0.win 1).flush t = true ∧ i ∈ ((cfg0.win 1).blk t).view.set := by
  have hi0 : (i 0).val < 64 := (i 0).isLt
  have hi1 : (i 1).val < 256 := (i 1).isLt
  have hN : cfg0.N = 8 := N_0
  obtain ⟨t, ht⟩ : ∃ t : Fin cfg0.N, t.val = (i 0).val / 8 := ⟨⟨(i 0).val / 8, by omega⟩, rfl⟩
  obtain ⟨-, -, -, b0, b1, -, -⟩ := index_facts t
  refine ⟨t, flush0_1 t, ?_⟩
  rw [chan_mem_blk]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 256 ≤ (i 1).val ∧ (i 1).val < win0_1.index t (1 : Fin 2) * 256 + 256; omega

theorem chan_array (c : Dev nD) : (dat0 (F := Ideal) V c).arrAt 1 cfg0.N = Cert.Spec.chMean (V c main_v0) :=
  (dat0 (F := Ideal) V c).arrAt_eq_of_cover 1 (Cert.Spec.chMean (V c main_v0)) (fun t _ => chan_flushed V c t) chan_cover

/-! ## The position means (window 2) -/

/-- At point `t`, entry (p, q) of the block written back is the position mean of the whole array at batch 8t + p, position q. -/
theorem pos_point (c : Dev nD) (t : Fin cfg0.N) (j : S8x1024.Idx) :
    k0_pay3 (iblk0 (F := Ideal) V c 0 t) j = Cert.Spec.spMean (V c main_v0) (((cfg0.win 2).blk t).view.emb j) := by
  obtain ⟨p, q, rfl⟩ : ∃ (p : Fin 8) (q : Fin 1024), j = ix2 p q := ⟨j 0, j 1, eq_ix2 j⟩
  obtain ⟨a0, a1, a2, -, -, b0, b1⟩ := index_facts t
  refine (block_spMean (iblk0 (F := Ideal) V c 0 t) p q).trans ?_
  unfold Cert.Spec.spMean
  refine congrArg (fun s => Ideal.div s (Ideal.ofBits .f32 0x43800000#32)) (Finset.sum_congr rfl fun k _ => ?_)
  show V c main_v0 (((cfg0.win 0).blk t).view.emb (ix3 p k q)) = V c main_v0 _
  refine congrArg (V c main_v0) (funext fun a => Fin.ext ?_)
  match a with
  | ⟨0, _⟩ => show win0_0.index t (0 : Fin 3) * 8 + 1 * p.val = win0_2.index t (0 : Fin 2) * 8 + 1 * p.val; omega
  | ⟨1, _⟩ => show win0_0.index t (1 : Fin 3) * 256 + 1 * k.val = k.val; omega
  | ⟨2, _⟩ => show win0_0.index t (2 : Fin 3) * 1024 + 1 * q.val = win0_2.index t (1 : Fin 2) * 1024 + 1 * q.val; omega

/-- What point `t` writes back into the position-mean array: its block of the whole array's position means. -/
theorem pos_flushed (c : Dev nD) (t : Fin cfg0.N) :
    (dat0 (F := Ideal) V c).flushed 2 t = ((cfg0.win 2).blk t).view.read (Elt Ideal) (Cert.Spec.spMean (V c main_v0)) := by
  show (cfg0.win 2).cut (grid0.coords t) ((dat0 V c).after 2 t) = _
  rw [after0_2]
  unfold out0_2
  rw [View.canon_unit_zero zero2]
  simp only [View.ld_unit_zero (S := S8x256x1024) zero3]
  funext j
  exact pos_point V c t j

/-- An index of the position-mean array lies in point `t`'s block iff each coordinate is in the block's range. -/
theorem pos_mem_blk (t : Fin cfg0.N) (i : S64x1024.Idx) :
    i ∈ ((cfg0.win 2).blk t).view.set ↔ ∀ a : Fin 2, win0_2.index t a * S8x1024.size a ≤ (i a).val ∧ (i a).val < win0_2.index t a * S8x1024.size a + S8x1024.size a := by
  show i ∈ ((View.whole main_v2_1).slice (win0_2.rect t)).set ↔ _
  rw [View.set_slice_whole, Rect.mem_set_unit]
  exact Iff.rfl

/-- Every (batch, position) is written back by the point of its batch's block of eight. -/
theorem pos_cover (i : S64x1024.Idx) :
    ∃ t : Fin cfg0.N, (cfg0.win 2).flush t = true ∧ i ∈ ((cfg0.win 2).blk t).view.set := by
  have hi0 : (i 0).val < 64 := (i 0).isLt
  have hi1 : (i 1).val < 1024 := (i 1).isLt
  have hN : cfg0.N = 8 := N_0
  obtain ⟨t, ht⟩ : ∃ t : Fin cfg0.N, t.val = (i 0).val / 8 := ⟨⟨(i 0).val / 8, by omega⟩, rfl⟩
  obtain ⟨-, -, -, -, -, b0, b1⟩ := index_facts t
  refine ⟨t, flush0_2 t, ?_⟩
  rw [pos_mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 1024 ≤ (i 1).val ∧ (i 1).val < win0_2.index t (1 : Fin 2) * 1024 + 1024; omega

theorem pos_array (c : Dev nD) : (dat0 (F := Ideal) V c).arrAt 2 cfg0.N = Cert.Spec.spMean (V c main_v0) :=
  (dat0 (F := Ideal) V c).arrAt_eq_of_cover 2 (Cert.Spec.spMean (V c main_v0)) (fun t _ => pos_flushed V c t) pos_cover

end Cert.KernelIdeal.Region0

end
-- ==== Proof.Region1.lean ====
import proofs.«130932_j62732292325378_1_alg».proof.Proof.Gen.KernelIdeal.Frame
import proofs.«130932_j62732292325378_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

-- the TensorCore's buffer contents when the region is entered
variable (V : (c : Dev nD) → (b : Ref sig .tc) → Buf (Elt Ideal) ((c : Thread nD τ).loc b))

/-- A channel gate [8,256], given a trailing unit axis and broadcast along the positions, reads at (b, ch, p) the gate of (b, ch). -/
theorem chanGate_apply (x1 : Vec Ideal S8x256 .f32) (b : Fin 8) (ch : Fin 256) (p : Fin 512) :
    broadcastTo S8x256x512 (shapeCast S8x256x1 x1 shapeCasts_S8x256_S8x256x1) broadcasts_S8x256x1_S8x256x512 (ix3 b ch p)
      = x1 (ix2 b ch) := by
  refine (broadcastTo_apply _ _ (ix3 b ch p) (ix3 b ch (0 : Fin 1)) (fun a => ?_)).trans ?_
  · match a with
    | ⟨0, _⟩ => rfl
    | ⟨1, _⟩ => rfl
    | ⟨2, _⟩ => rfl
  · refine shapeCast_apply x1 _ _ (ix2 b ch) ?_
    rw [Shape.rowMajor_val_three, Shape.rowMajor_val_two]
    show b.val * 256 + ch.val = (b.val * 256 + ch.val) * 1 + 0
    omega

/-- A position gate [8,512], given a middle unit axis and broadcast along the channels, reads at (b, ch, p) the gate of (b, p). -/
theorem posGate_apply (x2 : Vec Ideal S8x512 .f32) (b : Fin 8) (ch : Fin 256) (p : Fin 512) :
    broadcastTo S8x256x512 (shapeCast S8x1x512 x2 shapeCasts_S8x512_S8x1x512) broadcasts_S8x1x512_S8x256x512 (ix3 b ch p)
      = x2 (ix2 b p) := by
  refine (broadcastTo_apply _ _ (ix3 b ch p) (ix3 b (0 : Fin 1) p) (fun a => ?_)).trans ?_
  · match a with
    | ⟨0, _⟩ => rfl
    | ⟨1, _⟩ => rfl
    | ⟨2, _⟩ => rfl
  · refine shapeCast_apply x2 _ _ (ix2 b p) ?_
    rw [Shape.rowMajor_val_three, Shape.rowMajor_val_two]
    show b.val * 512 + p.val = (b.val * 1 + 0) * 512 + p.val
    omega

/-- The kernel's payload at (b, ch, p): the target element times its channel's gate and times its position's gate, the larger kept. -/
theorem pay_apply (x0 : Vec Ideal S8x256x512 .f32) (x1 : Vec Ideal S8x256 .f32) (x2 : Vec Ideal S8x512 .f32)
    (b : Fin 8) (ch : Fin 256) (p : Fin 512) :
    k1_pay1 x0 x1 x2 (ix3 b ch p) = max (x0 (ix3 b ch p) * x1 (ix2 b ch)) (x0 (ix3 b ch p) * x2 (ix2 b p)) := by
  unfold k1_pay1
  simp only [shapeCast_self]
  rw [maximumf_apply, mulf_apply, mulf_apply, chanGate_apply, posGate_apply]

/-- The payload at any index of the block, its coordinates read off the index. -/
theorem pay_at (x0 : Vec Ideal S8x256x512 .f32) (x1 : Vec Ideal S8x256 .f32) (x2 : Vec Ideal S8x512 .f32) (j : S8x256x512.Idx) :
    k1_pay1 x0 x1 x2 j = max (x0 j * x1 (ix2 (n0 := 8) (n1 := 256) (j 0) (j 1))) (x0 j * x2 (ix2 (n0 := 8) (n1 := 512) (j 0) (j 2))) := by
  obtain ⟨b, ch, p, rfl⟩ : ∃ (b : Fin 8) (ch : Fin 256) (p : Fin 512), j = ix3 b ch p := ⟨j 0, j 1, j 2, eq_ix3 j⟩
  exact pay_apply x0 x1 x2 b ch p

theorem zero3 : (![0, 0, 0] : Fin 3 → Nat) = fun _ => 0 := funext fun a => by fin_cases a <;> rfl
theorem zero2 : (![0, 0] : Fin 2 → Nat) = fun _ => 0 := funext fun a => by fin_cases a <;> rfl

/-- The index maps, decided over the 16 grid points: the target's block moves with the output's on every axis; the channel
    gate's block follows the output's batch block and stays at channel block 0; the position gate's block follows the
    output's batch and position blocks; the output's block indices stay in their ranges. -/
theorem index_facts : ∀ t : Fin cfg1.N,
    win1_0.index t (0 : Fin 3) = win1_3.index t (0 : Fin 3)
    ∧ win1_0.index t (1 : Fin 3) = win1_3.index t (1 : Fin 3)
    ∧ win1_0.index t (2 : Fin 3) = win1_3.index t (2 : Fin 3)
    ∧ win1_1.index t (0 : Fin 2) = win1_3.index t (0 : Fin 3)
    ∧ win1_1.index t (1 : Fin 2) = 0
    ∧ win1_2.index t (0 : Fin 2) = win1_3.index t (0 : Fin 3)
    ∧ win1_2.index t (1 : Fin 2) = win1_3.index t (2 : Fin 3)
    ∧ win1_3.index t (0 : Fin 3) ≤ 7
    ∧ win1_3.index t (1 : Fin 3) = 0
    ∧ win1_3.index t (2 : Fin 3) ≤ 1 :=
  (by decide +kernel : ∀ t : Fin grid1.N, _)

/-- Every (batch block, position block) pair is some grid point's output block. -/
theorem index_onto : ∀ (q0 : Fin 8) (q2 : Fin 2), ∃ t : Fin cfg1.N, win1_3.index t = ![q0.val, 0, q2.val] :=
  (by decide +kernel : ∀ (q0 : Fin 8) (q2 : Fin 2), ∃ t : Fin grid1.N, win1_3.index t = ![q0.val, 0, q2.val])

/-- What grid point t writes back is block t of the gated output of the three arrays as the region finds them. -/
theorem flushed_eq (c : Dev nD) (t : Fin cfg1.N) :
    (dat1 (F := Ideal) V c).flushed 3 t
      = ((cfg1.win 3).blk t).view.read (Elt Ideal) (Cert.Spec.fuse (V c main_v1) (V c main_v19) (V c main_v36)) := by
  show (cfg1.win 3).cut (grid1.coords t) ((dat1 V c).after 3 t) = _
  rw [after1_3]
  unfold out1_3
  rw [View.canon_unit_zero zero3]
  simp only [View.ld_unit_zero (S := S8x256x512) zero3, View.ld_unit_zero (S := S8x256) zero2, View.ld_unit_zero (S := S8x512) zero2]
  obtain ⟨e0, e1, e2, e3, e4, e5, e6, e7, e8, e9⟩ := index_facts t
  funext j
  show k1_pay1 (iblk1 V c 0 t) (iblk1 V c 1 t) (iblk1 V c 2 t) j
    = Cert.Spec.fuse (V c main_v1) (V c main_v19) (V c main_v36) (((cfg1.win 3).blk t).view.emb j)
  refine (pay_at (iblk1 V c 0 t) (iblk1 V c 1 t) (iblk1 V c 2 t) j).trans ?_
  have h0 : ((cfg1.win 0).blk t).view.emb j = ((cfg1.win 3).blk t).view.emb j := by
    funext a; apply Fin.ext
    match a with
    | ⟨0, _⟩ => show win1_0.index t (0 : Fin 3) * 8 + 1 * (j 0).val = win1_3.index t (0 : Fin 3) * 8 + 1 * (j 0).val; rw [e0]
    | ⟨1, _⟩ => show win1_0.index t (1 : Fin 3) * 256 + 1 * (j 1).val = win1_3.index t (1 : Fin 3) * 256 + 1 * (j 1).val; rw [e1]
    | ⟨2, _⟩ => show win1_0.index t (2 : Fin 3) * 512 + 1 * (j 2).val = win1_3.index t (2 : Fin 3) * 512 + 1 * (j 2).val; rw [e2]
  have h1 : ((cfg1.win 1).blk t).view.emb (ix2 (n0 := 8) (n1 := 256) (j 0) (j 1))
      = ix2 (n0 := 64) (n1 := 256) ((((cfg1.win 3).blk t).view.emb j) 0) ((((cfg1.win 3).blk t).view.emb j) 1) := by
    funext a; apply Fin.ext
    match a with
    | ⟨0, _⟩ => show win1_1.index t (0 : Fin 2) * 8 + 1 * (j 0).val = win1_3.index t (0 : Fin 3) * 8 + 1 * (j 0).val; rw [e3]
    | ⟨1, _⟩ => show win1_1.index t (1 : Fin 2) * 256 + 1 * (j 1).val = win1_3.index t (1 : Fin 3) * 256 + 1 * (j 1).val; rw [e4, e8]
  have h2 : ((cfg1.win 2).blk t).view.emb (ix2 (n0 := 8) (n1 := 512) (j 0) (j 2))
      = ix2 (n0 := 64) (n1 := 1024) ((((cfg1.win 3).blk t).view.emb j) 0) ((((cfg1.win 3).blk t).view.emb j) 2) := by
    funext a; apply Fin.ext
    match a with
    | ⟨0, _⟩ => show win1_2.index t (0 : Fin 2) * 8 + 1 * (j 0).val = win1_3.index t (0 : Fin 3) * 8 + 1 * (j 0).val; rw [e5]
    | ⟨1, _⟩ => show win1_2.index t (1 : Fin 2) * 512 + 1 * (j 2).val = win1_3.index t (2 : Fin 3) * 512 + 1 * (j 2).val; rw [e6]
  have g0 : iblk1 V c 0 t j = V c main_v1 (((cfg1.win 3).blk t).view.emb j) := congrArg (V c main_v1) h0
  have g1 : iblk1 V c 1 t (ix2 (n0 := 8) (n1 := 256) (j 0) (j 1))
      = V c main_v19 (ix2 (n0 := 64) (n1 := 256) ((((cfg1.win 3).blk t).view.emb j) 0) ((((cfg1.win 3).blk t).view.emb j) 1)) :=
    congrArg (V c main_v19) h1
  have g2 : iblk1 V c 2 t (ix2 (n0 := 8) (n1 := 512) (j 0) (j 2))
      = V c main_v36 (ix2 (n0 := 64) (n1 := 1024) ((((cfg1.win 3).blk t).view.emb j) 0) ((((cfg1.win 3).blk t).view.emb j) 2)) :=
    congrArg (V c main_v36) h2
  exact congrArg₂ (max : EReal → EReal → EReal) (congrArg₂ (fun a b : EReal => a * b) g0 g1) (congrArg₂ (fun a b : EReal => a * b) g0 g2)

/-- An index of the output array is in grid point t's block iff each coordinate is in the block's range on its axis. -/
theorem mem_blk (t : Fin cfg1.N) (i : S64x256x1024.Idx) :
    i ∈ ((cfg1.win 3).blk t).view.set ↔ ∀ a : Fin 3, win1_3.index t a * S8x256x512.size a ≤ (i a).val ∧ (i a).val < win1_3.index t a * S8x256x512.size a + S8x256x512.size a := by
  show i ∈ ((View.whole main_v37).slice (win1_3.rect t)).set ↔ _
  rw [View.set_slice_whole, Rect.mem_set_unit]
  exact Iff.rfl

/-- Every index (r, ch, p) of the output array is in the block of the grid point with batch block r / 8 and position block p / 512. -/
theorem cover (i : S64x256x1024.Idx) :
    ∃ t : Fin cfg1.N, (cfg1.win 3).flush t = true ∧ i ∈ ((cfg1.win 3).blk t).view.set := by
  have hi0 : (i 0).val < 64 := (i 0).isLt
  have hi1 : (i 1).val < 256 := (i 1).isLt
  have hi2 : (i 2).val < 1024 := (i 2).isLt
  obtain ⟨t, ht⟩ := index_onto ⟨(i 0).val / 8, by omega⟩ ⟨(i 2).val / 512, by omega⟩
  have q0 : win1_3.index t (0 : Fin 3) = (i 0).val / 8 := congrFun ht 0
  have q1 : win1_3.index t (1 : Fin 3) = 0 := congrFun ht 1
  have q2 : win1_3.index t (2 : Fin 3) = (i 2).val / 512 := congrFun ht 2
  refine ⟨t, flush1_3 t, ?_⟩
  rw [mem_blk]
  intro a
  match a with
  | ⟨0, _⟩ => show win1_3.index t (0 : Fin 3) * 8 ≤ (i 0).val ∧ (i 0).val < win1_3.index t (0 : Fin 3) * 8 + 8; omega
  | ⟨1, _⟩ => show win1_3.index t (1 : Fin 3) * 256 ≤ (i 1).val ∧ (i 1).val < win1_3.index t (1 : Fin 3) * 256 + 256; omega
  | ⟨2, _⟩ => show win1_3.index t (2 : Fin 3) * 512 ≤ (i 2).val ∧ (i 2).val < win1_3.index t (2 : Fin 3) * 512 + 512; omega

theorem out_array (c : Dev nD) :
    (dat1 (F := Ideal) V c).arrAt 3 cfg1.N = Cert.Spec.fuse (V c main_v1) (V c main_v19) (V c main_v36) :=
  (dat1 (F := Ideal) V c).arrAt_eq_of_cover 3 (Cert.Spec.fuse (V c main_v1) (V c main_v19) (V c main_v36))
    (fun t _ => flushed_eq V c t) cover

end Cert.KernelIdeal.Region1

end
-- ==== Proof.Whole.lean ====
import proofs.«130932_j62732292325378_1_alg».proof.Proof.Gen.KernelIdeal.Frame
import proofs.«130932_j62732292325378_1_alg».proof.Proof.Spec
import proofs.«130932_j62732292325378_1_alg».proof.Proof.RunValue
import proofs.«130932_j62732292325378_1_alg».proof.Proof.HostChain
import proofs.«130932_j62732292325378_1_alg».proof.Proof.Region0
import proofs.«130932_j62732292325378_1_alg».proof.Proof.Region1

noncomputable section

open Idealize.ShloMosaic Idealize.ShloMosaic.TcCoe Idealize.SL.Sem

namespace Cert.KernelIdeal.Whole

open Cert.KernelIdeal Cert.KernelIdeal.Gen Cert.KernelIdeal.HostChain

variable (m : (ℓ : Loc nD τ sig) → Buf (Elt Ideal) ℓ) (ρ : Dev nD → PrngReg)

/-- The kernel program's result as one function of its arguments, at the ideal values: the input and the target flattened
    to [64, 256, 1024]; the channel gate of the input's channel means and the position gate of its position means;
    the gated output; unflattened to [64, 256, 32, 32]. -/
def result (c : Dev nD) : Buf (Elt Ideal) ((c : Thread nD τ).loc main_v38) :=
  shapeCast S64x256x32x32
    (Cert.Spec.fuse (shapeCast S64x256x1024 (m ((c : Thread nD τ).loc main_arg1)) shapeCasts_S64x256x32x32_S64x256x1024)
      (gateC (F := Ideal) (Cert.Spec.chMean (shapeCast S64x256x1024 (m ((c : Thread nD τ).loc main_arg0)) shapeCasts_S64x256x32x32_S64x256x1024))
        (m ((c : Thread nD τ).loc main_arg2)) (m ((c : Thread nD τ).loc main_arg3)) (m ((c : Thread nD τ).loc main_arg4)) (m ((c : Thread nD τ).loc main_arg5)))
      (gateS (F := Ideal) (Cert.Spec.spMean (shapeCast S64x256x1024 (m ((c : Thread nD τ).loc main_arg0)) shapeCasts_S64x256x32x32_S64x256x1024))
        (m ((c : Thread nD τ).loc main_arg6)) (m ((c : Thread nD τ).loc main_arg7)) (m ((c : Thread nD τ).loc main_arg8)) (m ((c : Thread nD τ).loc main_arg9))))
    shapeCasts_S64x256x1024_S64x256x32x32

/-- The last boundary's contents at the result buffer are `result`: the unflattening of the second region's output array,
    which is the gated output of its three operands as the region finds them; those are the flattened target and the two
    gates of the first region's two output arrays, which are the means of the flattened input. -/
theorem boundary_result (c : Dev nD) : W9 m ρ c (Proc.devRef .tc main_v38) = result m c := by
  have h1 : V8 m ρ c main_v37 = (dat1 (V7 m ρ) c).arrAt 3 cfg1.N := (hF1 m ρ c 3).symm
  have h2 : V2 m ρ c main_v2_0 = (dat0 (V1 m ρ) c).arrAt 1 cfg0.N := (hF0 m ρ c 1).symm
  have h3 : V2 m ρ c main_v2_1 = (dat0 (V1 m ρ) c).arrAt 2 cfg0.N := (hF0 m ρ c 2).symm
  rw [out_exit, h1, Cert.KernelIdeal.Region1.out_array, t3_entry, gc_entry, gs_entry, h2, h3,
    Cert.KernelIdeal.Region0.chan_array, Cert.KernelIdeal.Region0.pos_array, x3_entry]
  rfl

/-- The run, read: the result buffer ends at `result` of the arguments, the arguments unchanged. -/
theorem run : θ_run defs (onTc (τ := τ) (main (F := Ideal))) ⟨m, fun _ => 0, ρ⟩ (fun r => ∀ c : Dev nD,
      r.2.mem ((c.tc : Thread nD τ).loc main_v38) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (boundary_result m ρ c), (h c).2⟩)
    (Cert.KernelIdeal.RunValue.run_value m ρ)

end Cert.KernelIdeal.Whole

end
-- ==== Proof.Means.lean ====
import proofs.«130932_j62732292325378_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

open scoped BigOperators
open Idealize.ShloMosaic Idealize.ShloMosaic.ValueIdx

namespace Cert.Means

open Cert.Spec

/-- [batch, channel, row, column]. -/
abbrev X4 : Shape := ⟨4, ![64, 256, 32, 32]⟩
/-- The rank-0 shape of a scalar constant. -/
abbrev S0 : Shape := ⟨0, ![]⟩

/-- [batch, row, column]. -/
abbrev P3 : Shape := ⟨3, ![64, 32, 32]⟩

/-- The row of a position below 1024 is below 32. -/
theorem div32_lt (k : Fin 1024) : k.val / 32 < 32 := by have := k.isLt; omega

/-- The column of a position below 1024 is below 32. -/
theorem mod32_lt (k : Fin 1024) : k.val % 32 < 32 := Nat.mod_lt _ (by decide)

/-- The flattened array at (b, c, k) is the input at (b, c, k / 32, k % 32): the same row-major position. -/
theorem flat_apply (x : X4.Idx → EReal) (hflat : X4.ShapeCasts X3) (b : Fin 64) (c : Fin 256) (k : Fin 1024) :
    shapeCast X3 x hflat (ix3 b c k) = x (ix4 b c ⟨k.val / 32, div32_lt k⟩ ⟨k.val % 32, mod32_lt k⟩) := by
  refine shapeCast_apply x hflat _ _ ?_
  rw [Shape.rowMajor_val_four, Shape.rowMajor_val_three]
  show ((b.val * 256 + c.val) * 32 + k.val / 32) * 32 + k.val % 32 = (b.val * 256 + c.val) * 1024 + k.val
  omega

/-- The indices whose batch and channel are (b, c), summed, are the 1024 positions k = 32·row + column, summed:
    the (row, column) pairs and the positions below 1024 correspond one to one. -/
theorem sum_rows (x : X4.Idx → EReal) (hred : X4.ReducesTo [2, 3] C2) (b : Fin 64) (c : Fin 256) :
    ∑ j ∈ Finset.univ.filter (fun j => hred.drop j = ix2 b c), x j
      = ∑ k : Fin 1024, x (ix4 b c ⟨k.val / 32, div32_lt k⟩ ⟨k.val % 32, mod32_lt k⟩) := by
  have key : ∀ j : X4.Idx, hred.drop j = ix2 b c → (j 0).val = b.val ∧ (j 1).val = c.val := by
    intro j hj
    refine ⟨?_, ?_⟩
    · rw [← Shape.ReducesTo.drop_apply_val_of_eq hred j 0 0, hj]
    · rw [← Shape.ReducesTo.drop_apply_val_of_eq hred j 1 1, hj]
  have linv : ∀ j : X4.Idx, hred.drop j = ix2 b c →
      ix4 b c (⟨((j 2).val * 32 + (j 3).val) / 32, by
          have h2 : (j 2).val < 32 := (j 2).isLt; have h3 : (j 3).val < 32 := (j 3).isLt; omega⟩ : Fin 32)
        (⟨((j 2).val * 32 + (j 3).val) % 32, Nat.mod_lt _ (by decide)⟩ : Fin 32) = j := by
    intro j hj
    obtain ⟨e0, e1⟩ := key j hj
    have h2 : (j 2).val < 32 := (j 2).isLt
    have h3 : (j 3).val < 32 := (j 3).isLt
    funext a
    apply Fin.ext
    match a with
    | ⟨0, _⟩ => exact e0.symm
    | ⟨1, _⟩ => exact e1.symm
    | ⟨2, _⟩ => show ((j 2).val * 32 + (j 3).val) / 32 = (j 2).val; omega
    | ⟨3, _⟩ => show ((j 2).val * 32 + (j 3).val) % 32 = (j 3).val; omega
  refine Finset.sum_nbij' (fun j => (⟨(j 2).val * 32 + (j 3).val, by
      have h2 : (j 2).val < 32 := (j 2).isLt; have h3 : (j 3).val < 32 := (j 3).isLt; omega⟩ : Fin 1024))
    (fun k => ix4 b c ⟨k.val / 32, div32_lt k⟩ ⟨k.val % 32, mod32_lt k⟩) ?_ ?_ ?_ ?_ ?_
  · intro j _; exact Finset.mem_univ _
  · intro k _
    refine Finset.mem_filter.2 ⟨Finset.mem_univ _, funext fun a => Fin.ext ?_⟩
    match a with
    | ⟨0, _⟩ => exact Shape.ReducesTo.drop_apply_val_of_eq hred _ 0 0
    | ⟨1, _⟩ => exact Shape.ReducesTo.drop_apply_val_of_eq hred _ 1 1
  · intro j hj; exact linv j (Finset.mem_filter.1 hj).2
  · intro k _; apply Fin.ext; show k.val / 32 * 32 + k.val % 32 = k.val; omega
  · intro j hj; exact congrArg x (linv j (Finset.mem_filter.1 hj).2).symm

/-- The channel mean of the flattened input is the host's mean over rows and columns: the sum over 1024 positions
    is the sum over the 32 × 32 (row, column) pairs, position = 32·row + column, from the zero initial value. -/
theorem chMean_flat (x : X4.Idx → EReal) (hflat : X4.ShapeCasts X3) (hred : X4.ReducesTo [2, 3] C2) (h0 : 0 < S0.numel)
    (hb : S0.BroadcastsInDim C2 (![] : Fin 0 → Fin C2.rank)) :
    chMean (shapeCast X3 x hflat)
      = Host.divf (F := Ideal) (φ := .f32) (Host.reduceAdd (F := Ideal) x (constant (F := Ideal) S0 .f32 0x00000000#32) hred h0)
          (broadcastInDim C2 ![] hb (constant (F := Ideal) S0 .f32 0x44800000#32)) := by
  funext i
  obtain ⟨b, c, rfl⟩ : ∃ (b : Fin 64) (c : Fin 256), i = ix2 b c := ⟨i 0, i 1, eq_ix2 i⟩
  have hR : Host.reduceAdd (F := Ideal) x (constant (F := Ideal) S0 .f32 0x00000000#32) hred h0 (ix2 b c)
      = ∑ k : Fin 1024, x (ix4 b c ⟨k.val / 32, div32_lt k⟩ ⟨k.val % 32, mod32_lt k⟩) := by
    show Ideal.hostReduceAdd hred x (Ideal.ofBits .f32 0x00000000#32) (ix2 b c) = _
    unfold Ideal.hostReduceAdd
    rw [Ideal.ofBits_zero_f32, zero_add, sum_rows]
  have hB : broadcastInDim C2 ![] hb (constant (F := Ideal) S0 .f32 0x44800000#32) (ix2 b c)
      = Ideal.ofBits .f32 0x44800000#32 :=
    broadcastInDim_apply ![] hb _ (ix2 b c) ix0 (fun a => a.elim0)
  show chMean (shapeCast X3 x hflat) (ix2 b c)
    = Ideal.div (Host.reduceAdd (F := Ideal) x (constant (F := Ideal) S0 .f32 0x00000000#32) hred h0 (ix2 b c))
        (broadcastInDim C2 ![] hb (constant (F := Ideal) S0 .f32 0x44800000#32) (ix2 b c))
  rw [hR, hB]
  unfold chMean
  exact congrArg (Ideal.div · _) (Finset.sum_congr rfl fun k _ => flat_apply x hflat b c k)

/-- The position mean of the flattened input is the host's mean over channels, flattened the same way. -/
theorem spMean_flat (x : X4.Idx → EReal) (hflat : X4.ShapeCasts X3) (hred : X4.ReducesTo [1] P3) (h0 : 0 < S0.numel)
    (hb : S0.BroadcastsInDim P3 (![] : Fin 0 → Fin P3.rank)) (hflat2 : P3.ShapeCasts P2) :
    spMean (shapeCast X3 x hflat)
      = shapeCast P2 (Host.divf (F := Ideal) (φ := .f32) (Host.reduceAdd (F := Ideal) x (constant (F := Ideal) S0 .f32 0x00000000#32) hred h0)
          (broadcastInDim P3 ![] hb (constant (F := Ideal) S0 .f32 0x43800000#32))) hflat2 := by
  funext i
  obtain ⟨b, p, rfl⟩ : ∃ (b : Fin 64) (p : Fin 1024), i = ix2 b p := ⟨i 0, i 1, eq_ix2 i⟩
  rw [shapeCast_apply _ hflat2 (ix2 b p) (ix3 b ⟨p.val / 32, div32_lt p⟩ ⟨p.val % 32, mod32_lt p⟩) (by
    rw [Shape.rowMajor_val_three, Shape.rowMajor_val_two]
    show (b.val * 32 + p.val / 32) * 32 + p.val % 32 = b.val * 1024 + p.val
    omega)]
  have hR : Host.reduceAdd (F := Ideal) x (constant (F := Ideal) S0 .f32 0x00000000#32) hred h0
        (ix3 b ⟨p.val / 32, div32_lt p⟩ ⟨p.val % 32, mod32_lt p⟩)
      = ∑ k : Fin 256, x (ix4 b k ⟨p.val / 32, div32_lt p⟩ ⟨p.val % 32, mod32_lt p⟩) := by
    show Ideal.hostReduceAdd hred x (Ideal.ofBits .f32 0x00000000#32) _ = _
    rw [Ideal.hostReduceAdd_single hred (by decide), Ideal.ofBits_zero_f32, zero_add]
    refine Finset.sum_congr rfl fun k _ => congrArg x (funext fun a => Fin.ext ?_)
    match a with
    | ⟨0, _⟩ => rfl
    | ⟨1, _⟩ => rfl
    | ⟨2, _⟩ => rfl
    | ⟨3, _⟩ => rfl
  have hB : broadcastInDim P3 ![] hb (constant (F := Ideal) S0 .f32 0x43800000#32)
        (ix3 b ⟨p.val / 32, div32_lt p⟩ ⟨p.val % 32, mod32_lt p⟩)
      = Ideal.ofBits .f32 0x43800000#32 :=
    broadcastInDim_apply ![] hb _ _ ix0 (fun a => a.elim0)
  show spMean (shapeCast X3 x hflat) (ix2 b p)
    = Ideal.div (Host.reduceAdd (F := Ideal) x (constant (F := Ideal) S0 .f32 0x00000000#32) hred h0
          (ix3 b ⟨p.val / 32, div32_lt p⟩ ⟨p.val % 32, mod32_lt p⟩))
        (broadcastInDim P3 ![] hb (constant (F := Ideal) S0 .f32 0x43800000#32)
          (ix3 b ⟨p.val / 32, div32_lt p⟩ ⟨p.val % 32, mod32_lt p⟩))
  rw [hR, hB]
  unfold spMean
  exact congrArg (Ideal.div · _) (Finset.sum_congr rfl fun k _ => flat_apply x hflat b k p)

end Cert.Means

end
-- ==== Proof.Layout.lean ====
import proofs.«130932_j62732292325378_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

open scoped BigOperators
open Idealize.ShloMosaic Idealize.ShloMosaic.ValueIdx

namespace Cert.Layout

open Cert.Spec

/-- [batch, channel, row, column]. -/
abbrev X4 : Shape := ⟨4, ![64, 256, 32, 32]⟩
/-- The rank-0 shape of a scalar constant. -/
abbrev S0 : Shape := ⟨0, ![]⟩

/-- [batch, channel, 1, 1]. -/
abbrev C4 : Shape := ⟨4, ![64, 256, 1, 1]⟩
/-- [batch, 1, row, column]. -/
abbrev P4 : Shape := ⟨4, ![64, 1, 32, 32]⟩

/-- The flattened array read at (b, c, 32 r + w) is the array at (b, c, r, w): both have row-major position
    ((256 b + c) 32 + r) 32 + w. -/
theorem flat_apply (t : X4.Idx → EReal) (hflat : X4.ShapeCasts X3)
    (b : Fin 64) (c : Fin 256) (r : Fin 32) (w : Fin 32) (hlt : 32 * r.val + w.val < 1024) :
    shapeCast X3 t hflat (ix3 b c (⟨32 * r.val + w.val, hlt⟩ : Fin 1024)) = t (ix4 b c r w) :=
  shapeCast_apply t hflat _ _ (by
    rw [Shape.rowMajor_val_three, Shape.rowMajor_val_four]
    show ((b.val * 256 + c.val) * 32 + r.val) * 32 + w.val = (b.val * 256 + c.val) * 1024 + (32 * r.val + w.val)
    omega)

/-- An array on [batch, channel, position] unflattened and read at (b, c, r, w) is the array at (b, c, 32 r + w). -/
theorem unflat_apply (u : X3.Idx → EReal) (hunflat : X3.ShapeCasts X4)
    (b : Fin 64) (c : Fin 256) (r : Fin 32) (w : Fin 32) (hlt : 32 * r.val + w.val < 1024) :
    shapeCast X4 u hunflat (ix4 b c r w) = u (ix3 b c (⟨32 * r.val + w.val, hlt⟩ : Fin 1024)) :=
  shapeCast_apply u hunflat _ _ (by
    rw [Shape.rowMajor_val_three, Shape.rowMajor_val_four]
    show (b.val * 256 + c.val) * 1024 + (32 * r.val + w.val) = ((b.val * 256 + c.val) * 32 + r.val) * 32 + w.val
    omega)

/-- The gated output at (b, c, p), its gates read at explicit coordinates. -/
theorem fuse_ix3 (u : X3.Idx → EReal) (g : C2.Idx → EReal) (h : P2.Idx → EReal)
    (b : Fin 64) (c : Fin 256) (p : Fin 1024) :
    fuse u g h (ix3 b c p) = max (u (ix3 b c p) * g (ix2 b c)) (u (ix3 b c p) * h (ix2 b p)) := rfl

/-- The channel gate broadcast to [batch, channel, 1, 1] and then over rows and columns, read at (b, c, r, w),
    is the gate at (b, c): (b, c, r, w) ↦ (b, c, 0, 0) ↦ (b, c). -/
theorem chan_apply (g : C2.Idx → EReal)
    (hb1 : C2.BroadcastsInDim C4 (![0, 1] : Fin 2 → Fin C4.rank))
    (hb2 : C4.BroadcastsInDim X4 (![0, 1, 2, 3] : Fin 4 → Fin X4.rank))
    (b : Fin 64) (c : Fin 256) (r : Fin 32) (w : Fin 32) :
    broadcastInDim X4 ![0, 1, 2, 3] hb2 (broadcastInDim C4 ![0, 1] hb1 g) (ix4 b c r w) = g (ix2 b c) := by
  refine (broadcastInDim_apply _ hb2 _ (ix4 b c r w) (ix4 b c (0 : Fin 1) (0 : Fin 1)) ?_).trans ?_
  · intro a
    match a with
    | ⟨0, _⟩ => rfl
    | ⟨1, _⟩ => rfl
    | ⟨2, _⟩ => rfl
    | ⟨3, _⟩ => rfl
  · refine broadcastInDim_apply _ hb1 g (ix4 b c (0 : Fin 1) (0 : Fin 1)) (ix2 b c) ?_
    intro a
    match a with
    | ⟨0, _⟩ => rfl
    | ⟨1, _⟩ => rfl

/-- The position gate unflattened to [batch, 1, row, column] and broadcast over channels, read at (b, c, r, w),
    is the gate at (b, 32 r + w): (b, c, r, w) ↦ (b, 0, r, w), whose row-major position is 1024 b + 32 r + w. -/
theorem pos_apply (h : P2.Idx → EReal) (hp : P2.ShapeCasts P4)
    (hb3 : P4.BroadcastsInDim X4 (![0, 1, 2, 3] : Fin 4 → Fin X4.rank))
    (b : Fin 64) (c : Fin 256) (r : Fin 32) (w : Fin 32) (hlt : 32 * r.val + w.val < 1024) :
    broadcastInDim X4 ![0, 1, 2, 3] hb3 (shapeCast P4 h hp) (ix4 b c r w)
      = h (ix2 b (⟨32 * r.val + w.val, hlt⟩ : Fin 1024)) := by
  refine (broadcastInDim_apply _ hb3 _ (ix4 b c r w) (ix4 b (0 : Fin 1) r w) ?_).trans ?_
  · intro a
    match a with
    | ⟨0, _⟩ => rfl
    | ⟨1, _⟩ => rfl
    | ⟨2, _⟩ => rfl
    | ⟨3, _⟩ => rfl
  · refine shapeCast_apply h hp _ _ ?_
    rw [Shape.rowMajor_val_two, Shape.rowMajor_val_four]
    show b.val * 1024 + (32 * r.val + w.val) = ((b.val * 1 + 0) * 32 + r.val) * 32 + w.val
    omega

/-- The gated output unflattened to [batch, channel, row, column] is the host's form: the target times the channel gate
    broadcast over rows and columns, and times the position gate unflattened and broadcast over channels; the larger kept. -/
theorem fuse_unflat (t : X4.Idx → EReal) (g : C2.Idx → EReal) (h : P2.Idx → EReal)
    (hflat : X4.ShapeCasts X3) (hunflat : X3.ShapeCasts X4)
    (hb1 : C2.BroadcastsInDim C4 (![0, 1] : Fin 2 → Fin C4.rank))
    (hb2 : C4.BroadcastsInDim X4 (![0, 1, 2, 3] : Fin 4 → Fin X4.rank))
    (hp : P2.ShapeCasts P4)
    (hb3 : P4.BroadcastsInDim X4 (![0, 1, 2, 3] : Fin 4 → Fin X4.rank)) :
    shapeCast X4 (fuse (shapeCast X3 t hflat) g h) hunflat
      = maximumf (F := Ideal) (φ := .f32) (mulf (F := Ideal) t (broadcastInDim X4 ![0, 1, 2, 3] hb2 (broadcastInDim C4 ![0, 1] hb1 g)))
          (mulf (F := Ideal) t (broadcastInDim X4 ![0, 1, 2, 3] hb3 (shapeCast P4 h hp))) := by
  funext i
  obtain ⟨b, c, r, w, rfl⟩ : ∃ (b : Fin 64) (c : Fin 256) (r : Fin 32) (w : Fin 32), i = ix4 b c r w :=
    ⟨i 0, i 1, i 2, i 3, eq_ix4 i⟩
  have hlt : 32 * r.val + w.val < 1024 := by omega
  -- the left side, down to the target and the two gates at explicit coordinates
  rw [unflat_apply _ hunflat b c r w hlt, fuse_ix3, flat_apply t hflat b c r w hlt]
  -- the right side, element by element
  rw [maximumf_apply, mulf_apply, mulf_apply, chan_apply g hb1 hb2 b c r w, pos_apply h hp hb3 b c r w hlt]

end Cert.Layout

end
-- ==== Proof.Bridge.lean ====
import proofs.«130932_j62732292325378_1_alg».proof.Proof.Gen.KernelIdeal
import proofs.«130932_j62732292325378_1_alg».proof.Proof.Gen.ReferenceIdeal
import proofs.«130932_j62732292325378_1_alg».proof.Proof.Spec
import proofs.«130932_j62732292325378_1_alg».proof.Proof.Means
import proofs.«130932_j62732292325378_1_alg».proof.Proof.Layout
import proofs.«130932_j62732292325378_1_alg».proof.Proof.HostChain

noncomputable section

open Idealize.ShloMosaic

namespace Cert.Bridge

open Cert.Spec Cert.KernelIdeal.HostChain

/-- The reference's whole term is the kernel program's result, as functions of the same ten arrays. The reference
    takes the channel mean over rows and columns and the position mean over channels of the unflattened input; these
    are the kernel's two means of the flattened input (the first flattened afterwards). Both programs then apply the same
    two gates, carried whole. The reference multiplies the target by each gate broadcast in four dimensions and keeps the
    larger; the kernel does so on the flattened target and unflattens: one function, index by index. -/
theorem ref_eq (x0 x1 : FVec Ideal Cert.ReferenceIdeal.S64x256x32x32 .f32) (x2 : FVec Ideal Cert.ReferenceIdeal.S1024x256 .f32) (x3 : FVec Ideal Cert.ReferenceIdeal.S1024 .f32)
    (x4 : FVec Ideal Cert.ReferenceIdeal.S256x1024 .f32) (x5 : FVec Ideal Cert.ReferenceIdeal.S256 .f32) (x6 : FVec Ideal Cert.ReferenceIdeal.S4096x1024 .f32) (x7 : FVec Ideal Cert.ReferenceIdeal.S4096 .f32)
    (x8 : FVec Ideal Cert.ReferenceIdeal.S1024x4096 .f32) (x9 : FVec Ideal Cert.ReferenceIdeal.S1024 .f32) :
    (maximumf (mulf x1 (broadcastInDim Cert.ReferenceIdeal.S64x256x32x32 ![0, 1, 2, 3] Cert.ReferenceIdeal.Facts₀.bcast_S64x256x1x1_S64x256x32x32_0_1_2_3 (broadcastInDim Cert.ReferenceIdeal.S64x256x1x1 ![0, 1] Cert.ReferenceIdeal.Facts₀.bcast_S64x256_S64x256x1x1_0_1 (Host.divf (broadcastInDim Cert.ReferenceIdeal.S64x256 ![] Cert.ReferenceIdeal.Facts₀.bcast_S_S64x256 (constant Cert.ReferenceIdeal.S_ .f32 0x3F800000#32)) (addf (broadcastInDim Cert.ReferenceIdeal.S64x256 ![] Cert.ReferenceIdeal.Facts₀.bcast_S_S64x256 (constant Cert.ReferenceIdeal.S_ .f32 0x3F800000#32)) (Host.exp (Host.negf (addf (Host.dotGeneral Cert.ReferenceIdeal.dot_S64x1024_S1024x256_S64x256_1_0_0_1_n_n none (maximumf (addf (Host.dotGeneral Cert.ReferenceIdeal.dot_S64x256_S256x1024_S64x1024_1_0_0_1_n_n none (Host.divf (Host.reduceAdd x0 (constant Cert.ReferenceIdeal.S_ .f32 0x00000000#32) Cert.ReferenceIdeal.Facts₀.reducesTo_S64x256x32x32_S64x256_d2_3 Cert.ReferenceIdeal.Facts₀.h_S_) (broadcastInDim Cert.ReferenceIdeal.S64x256 ![] Cert.ReferenceIdeal.Facts₀.bcast_S_S64x256 (constant Cert.ReferenceIdeal.S_ .f32 0x44800000#32))) (transpose Cert.ReferenceIdeal.S256x1024 [1, 0] x2 Cert.ReferenceIdeal.Facts₀.transposes_S1024x256_S256x1024_1_0)) (broadcastInDim Cert.ReferenceIdeal.S64x1024 ![0, 1] Cert.ReferenceIdeal.Facts₀.bcast_S1x1024_S64x1024_0_1 (broadcastInDim Cert.ReferenceIdeal.S1x1024 ![1] Cert.ReferenceIdeal.Facts₀.bcast_S1024_S1x1024_1 x3))) (broadcastInDim Cert.ReferenceIdeal.S64x1024 ![] Cert.ReferenceIdeal.Facts₀.bcast_S_S64x1024 (constant Cert.ReferenceIdeal.S_ .f32 0x00000000#32))) (transpose Cert.ReferenceIdeal.S1024x256 [1, 0] x4 Cert.ReferenceIdeal.Facts₀.transposes_S256x1024_S1024x256_1_0)) (broadcastInDim Cert.ReferenceIdeal.S64x256 ![0, 1] Cert.ReferenceIdeal.Facts₀.bcast_S1x256_S64x256_0_1 (broadcastInDim Cert.ReferenceIdeal.S1x256 ![1] Cert.ReferenceIdeal.Facts₀.bcast_S256_S1x256_1 x5)))))))))) (mulf x1 (broadcastInDim Cert.ReferenceIdeal.S64x256x32x32 ![0, 1, 2, 3] Cert.ReferenceIdeal.Facts₀.bcast_S64x1x32x32_S64x256x32x32_0_1_2_3 (shapeCast _ (Host.divf (broadcastInDim Cert.ReferenceIdeal.S64x1024 ![] Cert.ReferenceIdeal.Facts₀.bcast_S_S64x1024 (constant Cert.ReferenceIdeal.S_ .f32 0x3F800000#32)) (addf (broadcastInDim Cert.ReferenceIdeal.S64x1024 ![] Cert.ReferenceIdeal.Facts₀.bcast_S_S64x1024 (constant Cert.ReferenceIdeal.S_ .f32 0x3F800000#32)) (Host.exp (Host.negf (addf (Host.dotGeneral Cert.ReferenceIdeal.dot_S64x4096_S4096x1024_S64x1024_1_0_0_1_n_n none (maximumf (addf (Host.dotGeneral Cert.ReferenceIdeal.dot_S64x1024_S1024x4096_S64x4096_1_0_0_1_n_n none (shapeCast _ (Host.divf (Host.reduceAdd x0 (constant Cert.ReferenceIdeal.S_ .f32 0x00000000#32) Cert.ReferenceIdeal.Facts₀.reducesTo_S64x256x32x32_S64x32x32_d1 Cert.ReferenceIdeal.Facts₀.h_S_) (broadcastInDim Cert.ReferenceIdeal.S64x32x32 ![] Cert.ReferenceIdeal.Facts₀.bcast_S_S64x32x32 (constant Cert.ReferenceIdeal.S_ .f32 0x43800000#32))) Cert.ReferenceIdeal.Facts₀.shapeCasts_S64x32x32_S64x1024) (transpose Cert.ReferenceIdeal.S1024x4096 [1, 0] x6 Cert.ReferenceIdeal.Facts₀.transposes_S4096x1024_S1024x4096_1_0)) (broadcastInDim Cert.ReferenceIdeal.S64x4096 ![0, 1] Cert.ReferenceIdeal.Facts₀.bcast_S1x4096_S64x4096_0_1 (broadcastInDim Cert.ReferenceIdeal.S1x4096 ![1] Cert.ReferenceIdeal.Facts₀.bcast_S4096_S1x4096_1 x7))) (broadcastInDim Cert.ReferenceIdeal.S64x4096 ![] Cert.ReferenceIdeal.Facts₀.bcast_S_S64x4096 (constant Cert.ReferenceIdeal.S_ .f32 0x00000000#32))) (transpose Cert.ReferenceIdeal.S4096x1024 [1, 0] x8 Cert.ReferenceIdeal.Facts₀.transposes_S1024x4096_S4096x1024_1_0)) (broadcastInDim Cert.ReferenceIdeal.S64x1024 ![0, 1] Cert.ReferenceIdeal.Facts₀.bcast_S1x1024_S64x1024_0_1 (broadcastInDim Cert.ReferenceIdeal.S1x1024 ![1] Cert.ReferenceIdeal.Facts₀.bcast_S1024_S1x1024_1 x9))))))) Cert.ReferenceIdeal.Facts₀.shapeCasts_S64x1024_S64x1x32x32))) : FVec Ideal Cert.ReferenceIdeal.S64x256x32x32 .f32)
      = shapeCast Cert.KernelIdeal.S64x256x32x32
          (fuse (shapeCast Cert.KernelIdeal.S64x256x1024 x1 Cert.KernelIdeal.Facts₀.shapeCasts_S64x256x32x32_S64x256x1024)
            (gateC (F := Ideal) (chMean (shapeCast Cert.KernelIdeal.S64x256x1024 x0 Cert.KernelIdeal.Facts₀.shapeCasts_S64x256x32x32_S64x256x1024)) x2 x3 x4 x5)
            (gateS (F := Ideal) (spMean (shapeCast Cert.KernelIdeal.S64x256x1024 x0 Cert.KernelIdeal.Facts₀.shapeCasts_S64x256x32x32_S64x256x1024)) x6 x7 x8 x9))
          Cert.KernelIdeal.Facts₀.shapeCasts_S64x256x1024_S64x256x32x32 := by
  rw [Cert.Means.chMean_flat x0 Cert.KernelIdeal.Facts₀.shapeCasts_S64x256x32x32_S64x256x1024 Cert.ReferenceIdeal.Facts₀.reducesTo_S64x256x32x32_S64x256_d2_3 Cert.ReferenceIdeal.Facts₀.h_S_ Cert.ReferenceIdeal.Facts₀.bcast_S_S64x256,
    Cert.Means.spMean_flat x0 Cert.KernelIdeal.Facts₀.shapeCasts_S64x256x32x32_S64x256x1024 Cert.ReferenceIdeal.Facts₀.reducesTo_S64x256x32x32_S64x32x32_d1 Cert.ReferenceIdeal.Facts₀.h_S_ Cert.ReferenceIdeal.Facts₀.bcast_S_S64x32x32 Cert.ReferenceIdeal.Facts₀.shapeCasts_S64x32x32_S64x1024,
    Cert.Layout.fuse_unflat x1 _ _ Cert.KernelIdeal.Facts₀.shapeCasts_S64x256x32x32_S64x256x1024 Cert.KernelIdeal.Facts₀.shapeCasts_S64x256x1024_S64x256x32x32
      Cert.ReferenceIdeal.Facts₀.bcast_S64x256_S64x256x1x1_0_1 Cert.ReferenceIdeal.Facts₀.bcast_S64x256x1x1_S64x256x32x32_0_1_2_3 Cert.ReferenceIdeal.Facts₀.shapeCasts_S64x1024_S64x1x32x32 Cert.ReferenceIdeal.Facts₀.bcast_S64x1x32x32_S64x256x32x32_0_1_2_3]
  rfl

end Cert.Bridge

end
-- ==== Proof.lean ====
/-
  The certificate of a two-kernel squeeze-and-gate program against its plain reference, at the ideal values.

  The program flattens the input and the target to [64, 256, 1024] (position = 32·row + column). Its first kernel
  takes, batch block by batch block, the mean of every channel over its 1024 positions and the mean of every position
  over its 256 channels. The host then runs each mean through a two-layer gate (a dense layer, the positive part, a
  dense layer, the logistic function). Its second kernel multiplies every target element by its channel's gate and by
  its position's gate and keeps the larger; the host unflattens the result. The reference computes the same on the
  unflattened arrays: a mean over rows and columns, a mean over channels, the same two gates, two broadcast products and
  their maximum.

  The two agree as extended reals with no use of finiteness: the only laws used are that a finite sum may be
  re-indexed (the 1024 positions are the 32 × 32 row-column pairs) and that flattening, unflattening and broadcasting
  move elements without changing them. The gates are carried as whole functions and never opened. The frames of the two
  kernel programs are the generated ones; the reference's frame is its generated run with the result dropped; the
  idealization rewrote nothing.
-/
import proofs.«130932_j62732292325378_1_alg».proof.Defs
import proofs.«130932_j62732292325378_1_alg».proof.Proof.Gen.Kernel
import proofs.«130932_j62732292325378_1_alg».proof.Proof.Gen.Kernel.Skeleton
import proofs.«130932_j62732292325378_1_alg».proof.Proof.Gen.Kernel.Launch
import proofs.«130932_j62732292325378_1_alg».proof.Proof.Gen.Kernel.Points
import proofs.«130932_j62732292325378_1_alg».proof.Proof.Gen.Kernel.Frame
import proofs.«130932_j62732292325378_1_alg».proof.Proof.Gen.KernelIdeal
import proofs.«130932_j62732292325378_1_alg».proof.Proof.Gen.KernelIdeal.Skeleton
import proofs.«130932_j62732292325378_1_alg».proof.Proof.Gen.KernelIdeal.Launch
import proofs.«130932_j62732292325378_1_alg».proof.Proof.Gen.KernelIdeal.Points
import proofs.«130932_j62732292325378_1_alg».proof.Proof.Gen.KernelIdeal.Frame
import proofs.«130932_j62732292325378_1_alg».proof.Proof.Gen.ReferenceIdeal
import proofs.«130932_j62732292325378_1_alg».proof.Proof.Gen.Pre_finite_inputs
import proofs.«130932_j62732292325378_1_alg».proof.Proof.Gen.ReferenceIdeal.Run
import proofs.«130932_j62732292325378_1_alg».proof.Proof.Whole
import proofs.«130932_j62732292325378_1_alg».proof.Proof.Bridge
import Idealize.ShloMosaic.Adequacy
import Idealize.ShloMosaic.Init

noncomputable section

namespace Cert.Proof

open Idealize.ShloMosaic Idealize.SL.Sem

/-- The word-level kernel program runs and leaves its arguments: the generated frame. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the ten arguments the kernel program's result buffer ends at `Whole.result` of them, and the
    reference's at its composed term of them: one function of the arguments (`Bridge.ref_eq`). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [e0, e1, e2, e3, e4, e5, e6, e7, e8, e9]
  exact Cert.Bridge.ref_eq _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
